-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : IVec S2x1600000 32) (main_arg2 : FVec F S1600000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S8000x64 : Shape := ⟨2, ![8000, 64]⟩
abbrev S4000x64 : Shape := ⟨2, ![4000, 64]⟩

abbrev nBuf : Space → Nat
  | .hbm => 55
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1x64, .f32⟩
  | .hbm, ⟨29, _⟩ => ⟨S1x64, .f32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S1x64, .f32⟩
  | .hbm, ⟨47, _⟩ => ⟨S1x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S8000x64, .f32⟩
  | .local _ .vmem, ⟨27, _⟩ => ⟨S8000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S64x64, .f32⟩
  | .local _ .vmem, ⟨33, _⟩ => ⟨S1x64, .f32⟩
  | .local _ .vmem, ⟨34, _⟩ => ⟨S4000x64, .f32⟩
  | .local _ .vmem, ⟨35, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1600000x64.size a
  hwx0_6 : ∀ i : grid0.Coords, EltTy.bits .f32 = 32 ∨ (Rect.block (s := S1600000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S1600000x64.size a
  hwx2_6 : ∀ i : grid2.Coords, EltTy.bits .f32 = 32 ∨ (Rect.block (s := S1600000x64) S8000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S8000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v31) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S1x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S1x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1x64, .f32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S1x64, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_c_1 : Ref sig .tc := ⟨.hbm, 49, rfl⟩
abbrev main_v29 : Ref sig .tc := ⟨.hbm, 50, rfl⟩
abbrev main_v30 : Ref sig .tc := ⟨.hbm, 51, rfl⟩
abbrev main_c_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The two-layer message-passing network as functions of arrays over the extended reals, index by index.

  One layer: every edge's message is  x[src]·Wm + bm + e·We + be  (two matrix products over the 64 features, two
  bias rows); the messages are summed into their destination nodes; the node update adds  x·Ws + bs  to that sum.
  Between the two layers the node features pass through max(·, 0).  The functions are generic in the number of
  rows, so that the same function describes one block of rows and the whole array.  The gather of node rows to
  edges and the sum of edge rows into nodes are parameters of the network: both programs apply the same two.
-/
import Idealize.ShloMosaic.PureOps.Ideal.Laws
import Idealize.ShloMosaic.Lib.ValueIdx

noncomputable section

namespace Cert.Spec

open Idealize.ShloMosaic Idealize.ShloMosaic.ValueIdx

/-- Rows of 64 features. -/
abbrev Rows (n : Nat) : Type := FVec Ideal (⟨2, ![n, 64]⟩ : Shape) .f32
/-- A 64 × 64 weight matrix. -/
abbrev Mat : Type := FVec Ideal (⟨2, ![64, 64]⟩ : Shape) .f32
/-- A bias row, one number per feature. -/
abbrev Bias : Type := Fin 64 → EReal

/-- Entry (p, q) of row p of xs times Wm. -/
def dotAt {n : Nat} (xs : Rows n) (W : Mat) (p : Fin n) (q : Fin 64) : EReal :=
  ∑ k : Fin 64, xs (ix2 p k) * W (ix2 k q)

/-- The message of edge p at feature q: ((xs·Wm + bm) + e·We) + be, in that order of addition. -/
def edgeAt {n : Nat} (xs e : Rows n) (Wm We : Mat) (bm be : Bias) (p : Fin n) (q : Fin 64) : EReal :=
  ((dotAt xs Wm p q + bm q) + dotAt e We p q) + be q

/-- All messages. -/
def edge {n : Nat} (xs e : Rows n) (Wm We : Mat) (bm be : Bias) : Rows n :=
  fun j => edgeAt xs e Wm We bm be (j 0) (j 1)

/-- The updated node p at feature q: (agg + x·Ws) + bs. -/
def residAt {n : Nat} (agg x : Rows n) (Ws : Mat) (bs : Bias) (p : Fin n) (q : Fin 64) : EReal :=
  (agg (ix2 p q) + dotAt x Ws p q) + bs q

/-- All updated nodes. -/
def resid {n : Nat} (agg x : Rows n) (Ws : Mat) (bs : Bias) : Rows n :=
  fun j => residAt agg x Ws bs (j 0) (j 1)

/-- max(·, 0), the zero kept as the float word both programs print. -/
def relu {n : Nat} (h : Rows n) : Rows n :=
  fun j => max (h j) (Ideal.ofBits .f32 0x00000000#32)

theorem edge_apply {n : Nat} (xs e : Rows n) (Wm We : Mat) (bm be : Bias) (p : Fin n) (q : Fin 64) :
    edge xs e Wm We bm be (ix2 p q) = edgeAt xs e Wm We bm be p q := rfl

theorem resid_apply {n : Nat} (agg x : Rows n) (Ws : Mat) (bs : Bias) (p : Fin n) (q : Fin 64) :
    resid agg x Ws bs (ix2 p q) = residAt agg x Ws bs p q := rfl

/-- Two messages agree when their operands agree entry by entry: the rows read, the columns of the weights read, the
    two bias entries. -/
theorem edgeAt_congr {n n' : Nat} (xs e : Rows n) (xs' e' : Rows n') (Wm We Wm' We' : Mat) (bm be bm' be' : Bias)
    (p : Fin n) (p' : Fin n') (q : Fin 64)
    (hx : ∀ k, xs (ix2 p k) = xs' (ix2 p' k)) (he : ∀ k, e (ix2 p k) = e' (ix2 p' k))
    (hWm : ∀ k, Wm (ix2 k q) = Wm' (ix2 k q)) (hWe : ∀ k, We (ix2 k q) = We' (ix2 k q))
    (hbm : bm q = bm' q) (hbe : be q = be' q) :
    edgeAt xs e Wm We bm be p q = edgeAt xs' e' Wm' We' bm' be' p' q := by
  unfold edgeAt dotAt
  rw [hbm, hbe]
  congr 2
  · congr 1
    exact Finset.sum_congr rfl fun k _ => by rw [hx k, hWm k]
  · exact Finset.sum_congr rfl fun k _ => by rw [he k, hWe k]

/-- Two node updates agree when their operands agree entry by entry. -/
theorem residAt_congr {n n' : Nat} (agg x : Rows n) (agg' x' : Rows n') (Ws Ws' : Mat) (bs bs' : Bias)
    (p : Fin n) (p' : Fin n') (q : Fin 64)
    (ha : agg (ix2 p q) = agg' (ix2 p' q)) (hx : ∀ k, x (ix2 p k) = x' (ix2 p' k))
    (hWs : ∀ k, Ws (ix2 k q) = Ws' (ix2 k q)) (hbs : bs q = bs' q) :
    residAt agg x Ws bs p q = residAt agg' x' Ws' bs' p' q := by
  unfold residAt dotAt
  rw [hbs, ha]
  congr 2
  exact Finset.sum_congr rfl fun k _ => by rw [hx k, hWs k]

/-- `edge` of equal operands. -/
theorem edge_args {n : Nat} (xs xs' e e' : Rows n) (Wm Wm' We We' : Mat) (bm bm' be be' : Bias)
    (hxs : xs = xs') (he : e = e') (hWm : Wm = Wm') (hWe : We = We') (hbm : bm = bm') (hbe : be = be') :
    edge xs e Wm We bm be = edge xs' e' Wm' We' bm' be' := by
  subst hxs he hWm hWe hbm hbe; rfl

/-- `resid` of equal operands. -/
theorem resid_args {n : Nat} (agg agg' x x' : Rows n) (Ws Ws' : Mat) (bs bs' : Bias)
    (hagg : agg = agg') (hx : x = x') (hWs : Ws = Ws') (hbs : bs = bs') :
    resid agg x Ws bs = resid agg' x' Ws' bs' := by
  subst hagg hx hWs hbs; rfl

/-- One layer without the final max: gather, messages, sum into nodes, update. -/
def layer {N E : Nat} (gath : Rows N → Rows E) (scat : Rows E → Rows N)
    (x : Rows N) (e : Rows E) (Wm We Ws : Mat) (bm be bs : Bias) : Rows N :=
  resid (scat (edge (gath x) e Wm We bm be)) x Ws bs

/-- The two layers, max(·, 0) between them. -/
def network {N E : Nat} (gath : Rows N → Rows E) (scat : Rows E → Rows N)
    (x : Rows N) (e : Rows E) (Wm1 We1 Ws1 : Mat) (bm1 be1 bs1 : Bias) (Wm2 We2 Ws2 : Mat) (bm2 be2 bs2 : Bias) : Rows N :=
  layer gath scat (relu (layer gath scat x e Wm1 We1 Ws1 bm1 be1 bs1)) e Wm2 We2 Ws2 bm2 be2 bs2

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Edge0.lean ====
/-
  The first message kernel, one block of 8000 edges at a time.

  A grid point t takes rows 8000·t … 8000·t + 7999 of the gathered node rows and of the edge attributes, the two
  64 × 64 weight matrices and the two bias rows whole, and writes the same rows of the messages.  Entry (p, q) of
  what it writes is  ((∑ₖ xs[p,k]·Wm[k,q] + bm[q]) + ∑ₖ e[p,k]·We[k,q]) + be[q]:  a matrix product into a zero
  accumulator is the plain sum over the contracted axis, the change of float format is the identity on the extended
  reals, and a bias row broadcast over the rows reads its entry q.  The 200 blocks tile the 1 600 000 rows, so the
  array of messages after the region is that function of the arrays the region found, row by row.
-/
import proofs.«119272_j64201171140658_1_alg».proof.Proof.Gen.KernelIdeal.Frame
import proofs.«119272_j64201171140658_1_alg».proof.Proof.Spec
import proofs.«119272_j64201171140658_1_alg».proof.Proof.LibMatmulAt
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge0

open Cert.KernelIdeal Cert.KernelIdeal.Gen Cert.Spec

theorem hz : (![0, 0] : Fin 2 → Nat) = fun _ => 0 := funext fun a => by fin_cases a <;> rfl

/-! ## Where the block's matrix product reads its operands -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Entry (p, q) of a block's product into zero: the sum over the 64 features. -/
theorem matmul_at {φ₁ φ₂ : FTy} (l : FVec Ideal S8000x64 φ₁) (r : FVec Ideal S64x64 φ₂) (p : Fin 8000) (q : Fin 64) :
    matmul (F := Ideal) dot_S8000x64_S64x64_S8000x64_1_0_0_1_n_n none l r (constant S8000x64 .f32 0x00000000#32) (ix2 p q)
      = ∑ k : Fin 64, l (ix2 p k) * r (ix2 k q) :=
  MatmulAt.matmul_zero_at dot_S8000x64_S64x64_S8000x64_1_0_0_1_n_n rfl rfl lhs_0 lhs_1 rhs_0 rhs_1 none l r p q

/-! ## What one grid point stores, entry by entry -/

/-- The stored value at (p, q), from the six blocks the body loads. -/
theorem pay_at (x0 x1 : Vec Ideal S8000x64 .f32) (x2 x4 : Vec Ideal S64x64 .f32) (x3 x5 : Vec Ideal S1x64 .f32)
    (p : Fin 8000) (q : Fin 64) :
    k0_pay1 (F := Ideal) x0 x1 x2 x4 x3 x5 (ix2 p q)
      = edgeAt (n := 8000) x0 x1 x2 x4 (fun q => x3 (ix2 (0 : Fin 1) q)) (fun q => x5 (ix2 (0 : Fin 1) q)) p q := by
  unfold k0_pay1 edgeAt dotAt
  dsimp only
  rw [addf_apply, addf_apply, addf_apply]
  rw [matmul_at, matmul_at, broadcastTo_1b_ab_apply, broadcastTo_1b_ab_apply, shapeCast_self, shapeCast_self, shapeCast_self]
  rfl

/-! ## The blocks, as rows of the arrays the region finds -/

variable (V : (c : Dev nD) → (b : Ref sig .tc) → Buf (Elt Ideal) ((c : Thread nD τ).loc b))

/-- The printed index maps over the 200 grid points: the three row windows sit at block row t, the weights and the
    bias rows at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The function the messages' array ends at: `edge` of the arrays as the region finds them. -/
abbrev G (c : Dev nD) : Rows 1600000 :=
  edge (n := 1600000) (V c (Pipeline.arrRef spec0 0)) (V c (Pipeline.arrRef spec0 1)) (V c (Pipeline.arrRef spec0 2)) (V c (Pipeline.arrRef spec0 4))
    (fun q => (V c (Pipeline.arrRef spec0 3) : S1x64.Idx → EReal) (ix2 (0 : Fin 1) q))
    (fun q => (V c (Pipeline.arrRef spec0 5) : S1x64.Idx → EReal) (ix2 (0 : Fin 1) q))

/-- `G` at an index, from the index's two coordinates. -/
theorem G_at (c : Dev nD) (i : S1600000x64.Idx) (P : Fin 1600000) (Q : Fin 64) (h0 : (i 0).val = P.val) (h1 : (i 1).val = Q.val) :
    G V c i = edgeAt (n := 1600000) (V c (Pipeline.arrRef spec0 0)) (V c (Pipeline.arrRef spec0 1)) (V c (Pipeline.arrRef spec0 2)) (V c (Pipeline.arrRef spec0 4))
      (fun q => (V c (Pipeline.arrRef spec0 3) : S1x64.Idx → EReal) (ix2 (0 : Fin 1) q))
      (fun q => (V c (Pipeline.arrRef spec0 5) : S1x64.Idx → EReal) (ix2 (0 : Fin 1) q)) P Q := by
  have hi : i = ix2 P Q := funext fun a => Fin.ext (by
    match a with
    | ⟨0, _⟩ => exact h0
    | ⟨1, _⟩ => exact h1)
  rw [hi]
  rfl

/-- Entry (p, k) of the gathered rows' block at point t is entry (8000·t + p, k) of the array. -/
theorem blk0 (c : Dev nD) (t : Fin cfg0.N) (p : Fin 8000) (k : Fin 64) (i : S1600000x64.Idx)
    (hi0 : (i 0).val = t.val * 8000 + p.val) (hi1 : (i 1).val = k.val) :
    (iblk0 V c 0 t : Vec Ideal S8000x64 .f32) (ix2 p k) = (V c (Pipeline.arrRef spec0 0) : S1600000x64.Idx → EReal) i := by
  obtain ⟨e0, e1, -⟩ := idx_facts t
  unfold iblk0
  rw [View.read_apply]
  refine congrArg (V c (Pipeline.arrRef spec0 0)) (funext fun a => Fin.ext ?_)
  match a with
  | ⟨0, _⟩ => show win0_0.index t 0 * 8000 + 1 * p.val = (i 0).val; rw [e0, hi0]; omega
  | ⟨1, _⟩ => show win0_0.index t 1 * 64 + 1 * k.val = (i 1).val; rw [e1, hi1]; omega

/-- The same for the edge attributes' block. -/
theorem blk1 (c : Dev nD) (t : Fin cfg0.N) (p : Fin 8000) (k : Fin 64) (i : S1600000x64.Idx)
    (hi0 : (i 0).val = t.val * 8000 + p.val) (hi1 : (i 1).val = k.val) :
    (iblk0 V c 1 t : Vec Ideal S8000x64 .f32) (ix2 p k) = (V c (Pipeline.arrRef spec0 1) : S1600000x64.Idx → EReal) i := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t 0 * 8000 + 1 * p.val = (i 0).val; rw [e0, hi0]; omega
  | ⟨1, _⟩ => show win0_1.index t 1 * 64 + 1 * k.val = (i 1).val; rw [e1, hi1]; omega

/-- A weight matrix's one block is the matrix. -/
theorem blk2 (c : Dev nD) (t : Fin cfg0.N) (k q : Fin 64) :
    (iblk0 V c 2 t : Vec Ideal S64x64 .f32) (ix2 k q) = (V c (Pipeline.arrRef spec0 2) : S64x64.Idx → EReal) (ix2 k q) := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t 0 * 64 + 1 * k.val = k.val; rw [e0]; omega
  | ⟨1, _⟩ => show win0_2.index t 1 * 64 + 1 * q.val = q.val; rw [e1]; omega

theorem blk4 (c : Dev nD) (t : Fin cfg0.N) (k q : Fin 64) :
    (iblk0 V c 4 t : Vec Ideal S64x64 .f32) (ix2 k q) = (V c (Pipeline.arrRef spec0 4) : S64x64.Idx → EReal) (ix2 k q) := by
  obtain ⟨-, -, -, -, -, -, -, -, e0, e1, -⟩ := idx_facts t
  unfold iblk0
  rw [View.read_apply]
  refine congrArg (V c (Pipeline.arrRef spec0 4)) (funext fun a => Fin.ext ?_)
  match a with
  | ⟨0, _⟩ => show win0_4.index t 0 * 64 + 1 * k.val = k.val; rw [e0]; omega
  | ⟨1, _⟩ => show win0_4.index t 1 * 64 + 1 * q.val = q.val; rw [e1]; omega

/-- A bias row's one block is the row. -/
theorem blk3 (c : Dev nD) (t : Fin cfg0.N) (q : Fin 64) :
    (iblk0 V c 3 t : Vec Ideal S1x64 .f32) (ix2 (0 : Fin 1) q) = (V c (Pipeline.arrRef spec0 3) : S1x64.Idx → EReal) (ix2 (0 : Fin 1) q) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t 0 * 1 + 1 * 0 = 0; rw [e0]
  | ⟨1, _⟩ => show win0_3.index t 1 * 64 + 1 * q.val = q.val; rw [e1]; omega

theorem blk5 (c : Dev nD) (t : Fin cfg0.N) (q : Fin 64) :
    (iblk0 V c 5 t : Vec Ideal S1x64 .f32) (ix2 (0 : Fin 1) q) = (V c (Pipeline.arrRef spec0 5) : S1x64.Idx → EReal) (ix2 (0 : Fin 1) q) := by
  obtain ⟨-, -, -, -, -, -, -, -, -, -, e0, e1, -⟩ := idx_facts t
  unfold iblk0
  rw [View.read_apply]
  refine congrArg (V c (Pipeline.arrRef spec0 5)) (funext fun a => Fin.ext ?_)
  match a with
  | ⟨0, _⟩ => show win0_5.index t 0 * 1 + 1 * 0 = 0; rw [e0]
  | ⟨1, _⟩ => show win0_5.index t 1 * 64 + 1 * q.val = q.val; rw [e1]; omega

/-! ## What a point writes back, the cover, the array after the region -/

/-- What point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S8000x64) hz, View.ld_unit_zero (S := S64x64) hz, View.ld_unit_zero (S := S1x64) hz]
  funext j
  show k0_pay1 (F := Ideal) (iblk0 V c 0 t) (iblk0 V c 1 t) (iblk0 V c 2 t) (iblk0 V c 4 t) (iblk0 V c 3 t) (iblk0 V c 5 t) j
    = G V c (((cfg0.win 6).blk t).view.emb j)
  obtain ⟨p, q, rfl⟩ : ∃ (p : Fin 8000) (q : Fin 64), j = ix2 p q := ⟨j 0, j 1, eq_ix2 j⟩
  obtain ⟨-, -, -, -, -, -, -, -, -, -, -, -, e0, e1⟩ := idx_facts t
  have ht : t.val < 200 := by have h := t.isLt; have hN : cfg0.N = 200 := N_0; omega
  have hb : t.val * 8000 + p.val < 1600000 := by have := p.isLt; omega
  refine ((pay_at _ _ _ _ _ _ p q).trans ?_).trans (G_at V c _ ⟨t.val * 8000 + p.val, hb⟩ q ?_ ?_).symm
  · exact edgeAt_congr _ _ _ _ _ _ _ _ _ _ _ _ p ⟨t.val * 8000 + p.val, hb⟩ q
      (fun k => blk0 V c t p k _ rfl rfl) (fun k => blk1 V c t p k _ rfl rfl)
      (fun k => blk2 V c t k q) (fun k => blk4 V c t k q) (blk3 V c t q) (blk5 V c t q)
  · show win0_6.index t 0 * 8000 + 1 * p.val = t.val * 8000 + p.val
    rw [e0]; omega
  · show win0_6.index t 1 * 64 + 1 * q.val = q.val
    rw [e1]; omega

/-- An index of the messages' array is in point t's block iff each coordinate is in the block's range on its axis. -/
theorem mem_blk (t : Fin cfg0.N) (i : S1600000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v13).slice (win0_6.rect t)).set ↔ _
  rw [View.set_slice_whole, Rect.mem_set_unit]
  exact Iff.rfl

/-- Row r lies in the block of point r / 8000: the 200 blocks tile the array. -/
theorem cover (i : S1600000x64.Idx) : ∃ t : Fin cfg0.N, (cfg0.win 6).flush t = true ∧ i ∈ ((cfg0.win 6).blk t).view.set := by
  have hi0 : (i 0).val < 1600000 := (i 0).isLt
  have hi1 : (i 1).val < 64 := (i 1).isLt
  have hN : cfg0.N = 200 := N_0
  obtain ⟨t, ht⟩ : ∃ t : Fin cfg0.N, t.val = (i 0).val / 8000 := ⟨⟨(i 0).val / 8000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t 0 * 8000 ≤ (i 0).val ∧ (i 0).val < win0_6.index t 0 * 8000 + 8000
    rw [e0, ht]; omega
  | ⟨1, _⟩ =>
    show win0_6.index t 1 * 64 ≤ (i 1).val ∧ (i 1).val < win0_6.index t 1 * 64 + 64
    rw [e1]; omega

/-- After the region the messages' array is `edge` of the arrays the region found. -/
theorem final (c : Dev nD) : (dat0 V c).arrAt 6 cfg0.N = G V c :=
  (dat0 V c).arrAt_eq_of_cover 6 (G V c) (fun t _ => flushed_eq V c t) cover

end Cert.KernelIdeal.Edge0

end
-- ==== Proof.Resid1.lean ====
/-
  The first node-update kernel, one block of 4000 nodes at a time.

  A grid point t takes rows 4000·t … 4000·t + 3999 of the summed messages and of the node features, the 64 × 64
  weight matrix and the bias row whole, and writes the same rows of the updated nodes.  Entry (p, q) of what it
  writes is  max((agg[p,q] + ∑ₖ x[p,k]·Ws[k,q]) + bs[q], 0):  the matrix product into a zero accumulator is the plain
  sum over the contracted axis, the change of float format is the identity on the extended reals, the bias row
  broadcast over the rows reads its entry q.  The 25 blocks tile the 100 000 rows, so the array after the region is
  that function of the arrays the region found, row by row.
-/
import proofs.«119272_j64201171140658_1_alg».proof.Proof.Gen.KernelIdeal.Frame
import proofs.«119272_j64201171140658_1_alg».proof.Proof.Spec
import proofs.«119272_j64201171140658_1_alg».proof.Proof.LibMatmulAt
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Resid1

open Cert.KernelIdeal Cert.KernelIdeal.Gen Cert.Spec

theorem hz : (![0, 0] : Fin 2 → Nat) = fun _ => 0 := funext fun a => by fin_cases a <;> rfl

/-! ## Where the block's matrix product reads its operands -/

theorem lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of a block's product into zero: the sum over the 64 features. -/
theorem matmul_at {φ₁ φ₂ : FTy} (l : FVec Ideal S4000x64 φ₁) (r : FVec Ideal S64x64 φ₂) (p : Fin 4000) (q : Fin 64) :
    matmul (F := Ideal) dot_S4000x64_S64x64_S4000x64_1_0_0_1_n_n none l r (constant S4000x64 .f32 0x00000000#32) (ix2 p q)
      = ∑ k : Fin 64, l (ix2 p k) * r (ix2 k q) :=
  MatmulAt.matmul_zero_at dot_S4000x64_S64x64_S4000x64_1_0_0_1_n_n rfl rfl lhs_0 lhs_1 rhs_0 rhs_1 none l r p q

/-! ## What one grid point stores, entry by entry -/

/-- The stored value at (p, q), from the four blocks the body loads: the node rows, the weights, the summed
    messages, the bias row. -/
theorem pay_at (xb ab : Vec Ideal S4000x64 .f32) (W : Vec Ideal S64x64 .f32) (b : Vec Ideal S1x64 .f32)
    (p : Fin 4000) (q : Fin 64) :
    k1_pay1 (F := Ideal) xb W ab b (ix2 p q)
      = max (residAt (n := 4000) ab xb W (fun q => b (ix2 (0 : Fin 1) q)) p q) (Ideal.ofBits .f32 0x00000000#32) := by
  unfold k1_pay1 residAt dotAt
  dsimp only
  rw [maximumf_apply, addf_apply, addf_apply, matmul_at, broadcastTo_1b_ab_apply, shapeCast_self, shapeCast_self]
  rfl

/-! ## The blocks, as rows of the arrays the region finds -/

variable (V : (c : Dev nD) → (b : Ref sig .tc) → Buf (Elt Ideal) ((c : Thread nD τ).loc b))

/-- The printed index maps over the 25 grid points: the three row windows sit at block row t, the weights and the
    bias row at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The function the output array ends at, of the arrays as the region finds them. -/
abbrev G (c : Dev nD) : Rows 100000 :=
  relu (n := 100000) (resid (n := 100000) (V c (Pipeline.arrRef spec1 0)) (V c (Pipeline.arrRef spec1 1)) (V c (Pipeline.arrRef spec1 2))
    (fun q => (V c (Pipeline.arrRef spec1 3) : S1x64.Idx → EReal) (ix2 (0 : Fin 1) q)))

/-- `G` at an index, from the index's two coordinates. -/
theorem G_at (c : Dev nD) (i : S100000x64.Idx) (P : Fin 100000) (Q : Fin 64) (h0 : (i 0).val = P.val) (h1 : (i 1).val = Q.val) :
    G V c i = max (residAt (n := 100000) (V c (Pipeline.arrRef spec1 0)) (V c (Pipeline.arrRef spec1 1)) (V c (Pipeline.arrRef spec1 2))
      (fun q => (V c (Pipeline.arrRef spec1 3) : S1x64.Idx → EReal) (ix2 (0 : Fin 1) q)) P Q) (Ideal.ofBits .f32 0x00000000#32) := by
  have hi : i = ix2 P Q := funext fun a => Fin.ext (by
    match a with
    | ⟨0, _⟩ => exact h0
    | ⟨1, _⟩ => exact h1)
  rw [hi]
  rfl

/-- Entry (p, k) of the summed messages' block at point t is entry (4000·t + p, k) of the array. -/
theorem blk0 (c : Dev nD) (t : Fin cfg1.N) (p : Fin 4000) (k : Fin 64) (i : S100000x64.Idx)
    (hi0 : (i 0).val = t.val * 4000 + p.val) (hi1 : (i 1).val = k.val) :
    (iblk1 V c 0 t : Vec Ideal S4000x64 .f32) (ix2 p k) = (V c (Pipeline.arrRef spec1 0) : S100000x64.Idx → EReal) i := by
  obtain ⟨e0, e1, -⟩ := idx_facts t
  unfold iblk1
  rw [View.read_apply]
  refine congrArg (V c (Pipeline.arrRef spec1 0)) (funext fun a => Fin.ext ?_)
  match a with
  | ⟨0, _⟩ => show win1_0.index t 0 * 4000 + 1 * p.val = (i 0).val; rw [e0, hi0]; omega
  | ⟨1, _⟩ => show win1_0.index t 1 * 64 + 1 * k.val = (i 1).val; rw [e1, hi1]; omega

/-- The same for the node features' block. -/
theorem blk1 (c : Dev nD) (t : Fin cfg1.N) (p : Fin 4000) (k : Fin 64) (i : S100000x64.Idx)
    (hi0 : (i 0).val = t.val * 4000 + p.val) (hi1 : (i 1).val = k.val) :
    (iblk1 V c 1 t : Vec Ideal S4000x64 .f32) (ix2 p k) = (V c (Pipeline.arrRef spec1 1) : S100000x64.Idx → EReal) i := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t 0 * 4000 + 1 * p.val = (i 0).val; rw [e0, hi0]; omega
  | ⟨1, _⟩ => show win1_1.index t 1 * 64 + 1 * k.val = (i 1).val; rw [e1, hi1]; omega

/-- The weight matrix's one block is the matrix. -/
theorem blk2 (c : Dev nD) (t : Fin cfg1.N) (k q : Fin 64) :
    (iblk1 V c 2 t : Vec Ideal S64x64 .f32) (ix2 k q) = (V c (Pipeline.arrRef spec1 2) : S64x64.Idx → EReal) (ix2 k q) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t 0 * 64 + 1 * k.val = k.val; rw [e0]; omega
  | ⟨1, _⟩ => show win1_2.index t 1 * 64 + 1 * q.val = q.val; rw [e1]; omega

/-- The bias row's one block is the row. -/
theorem blk3 (c : Dev nD) (t : Fin cfg1.N) (q : Fin 64) :
    (iblk1 V c 3 t : Vec Ideal S1x64 .f32) (ix2 (0 : Fin 1) q) = (V c (Pipeline.arrRef spec1 3) : S1x64.Idx → EReal) (ix2 (0 : Fin 1) q) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t 0 * 1 + 1 * 0 = 0; rw [e0]
  | ⟨1, _⟩ => show win1_3.index t 1 * 64 + 1 * q.val = q.val; rw [e1]; omega

/-! ## What a point writes back, the cover, the array after the region -/

/-- What point t writes back is block t of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S4000x64) hz, View.ld_unit_zero (S := S64x64) hz, View.ld_unit_zero (S := S1x64) hz]
  funext j
  show k1_pay1 (F := Ideal) (iblk1 V c 1 t) (iblk1 V c 2 t) (iblk1 V c 0 t) (iblk1 V c 3 t) j
    = G V c (((cfg1.win 4).blk t).view.emb j)
  obtain ⟨p, q, rfl⟩ : ∃ (p : Fin 4000) (q : Fin 64), j = ix2 p q := ⟨j 0, j 1, eq_ix2 j⟩
  obtain ⟨-, -, -, -, -, -, -, -, e0, e1⟩ := idx_facts t
  have ht : t.val < 25 := by have h := t.isLt; have hN : cfg1.N = 25 := N_1; omega
  have hb : t.val * 4000 + p.val < 100000 := by have := p.isLt; omega
  refine ((pay_at _ _ _ _ p q).trans ?_).trans (G_at V c _ ⟨t.val * 4000 + p.val, hb⟩ q ?_ ?_).symm
  · exact congrArg (fun z => max z (Ideal.ofBits .f32 0x00000000#32)) (residAt_congr _ _ _ _ _ _ _ _ p ⟨t.val * 4000 + p.val, hb⟩ q
      (blk0 V c t p q _ rfl rfl) (fun k => blk1 V c t p k _ rfl rfl) (fun k => blk2 V c t k q) (blk3 V c t q))
  · show win1_4.index t 0 * 4000 + 1 * p.val = t.val * 4000 + p.val
    rw [e0]; omega
  · show win1_4.index t 1 * 64 + 1 * q.val = q.val
    rw [e1]; omega

/-- An index of the output array is in point t's block iff each coordinate is in the block's range on its axis. -/
theorem mem_blk (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v18).slice (win1_4.rect t)).set ↔ _
  rw [View.set_slice_whole, Rect.mem_set_unit]
  exact Iff.rfl

/-- Row r lies in the block of point r / 4000: the 25 blocks tile the array. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t 0 * 4000 ≤ (i 0).val ∧ (i 0).val < win1_4.index t 0 * 4000 + 4000
    rw [e0, ht]; omega
  | ⟨1, _⟩ =>
    show win1_4.index t 1 * 64 ≤ (i 1).val ∧ (i 1).val < win1_4.index t 1 * 64 + 64
    rw [e1]; omega

/-- After the region the output array is `G` of the arrays the region found. -/
theorem final (c : Dev nD) : (dat1 V c).arrAt 4 cfg1.N = G V c :=
  (dat1 V c).arrAt_eq_of_cover 4 (G V c) (fun t _ => flushed_eq V c t) cover

end Cert.KernelIdeal.Resid1

end
-- ==== Proof.Edge2.lean ====
/-
  The second message kernel, one block of 8000 edges at a time.

  A grid point t takes rows 8000·t … 8000·t + 7999 of the gathered node rows and of the edge attributes, the two
  64 × 64 weight matrices and the two bias rows whole, and writes the same rows of the messages.  Entry (p, q) of
  what it writes is  ((∑ₖ xs[p,k]·Wm[k,q] + bm[q]) + ∑ₖ e[p,k]·We[k,q]) + be[q]:  a matrix product into a zero
  accumulator is the plain sum over the contracted axis, the change of float format is the identity on the extended
  reals, and a bias row broadcast over the rows reads its entry q.  The 200 blocks tile the 1 600 000 rows, so the
  array of messages after the region is that function of the arrays the region found, row by row.
-/
import proofs.«119272_j64201171140658_1_alg».proof.Proof.Gen.KernelIdeal.Frame
import proofs.«119272_j64201171140658_1_alg».proof.Proof.Spec
import proofs.«119272_j64201171140658_1_alg».proof.Proof.LibMatmulAt
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge2

open Cert.KernelIdeal Cert.KernelIdeal.Gen Cert.Spec

theorem hz : (![0, 0] : Fin 2 → Nat) = fun _ => 0 := funext fun a => by fin_cases a <;> rfl

/-! ## Where the block's matrix product reads its operands -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Entry (p, q) of a block's product into zero: the sum over the 64 features. -/
theorem matmul_at {φ₁ φ₂ : FTy} (l : FVec Ideal S8000x64 φ₁) (r : FVec Ideal S64x64 φ₂) (p : Fin 8000) (q : Fin 64) :
    matmul (F := Ideal) dot_S8000x64_S64x64_S8000x64_1_0_0_1_n_n none l r (constant S8000x64 .f32 0x00000000#32) (ix2 p q)
      = ∑ k : Fin 64, l (ix2 p k) * r (ix2 k q) :=
  MatmulAt.matmul_zero_at dot_S8000x64_S64x64_S8000x64_1_0_0_1_n_n rfl rfl lhs_0 lhs_1 rhs_0 rhs_1 none l r p q

/-! ## What one grid point stores, entry by entry -/

/-- The stored value at (p, q), from the six blocks the body loads. -/
theorem pay_at (x0 x1 : Vec Ideal S8000x64 .f32) (x2 x4 : Vec Ideal S64x64 .f32) (x3 x5 : Vec Ideal S1x64 .f32)
    (p : Fin 8000) (q : Fin 64) :
    k2_pay1 (F := Ideal) x0 x1 x2 x4 x3 x5 (ix2 p q)
      = edgeAt (n := 8000) x0 x1 x2 x4 (fun q => x3 (ix2 (0 : Fin 1) q)) (fun q => x5 (ix2 (0 : Fin 1) q)) p q := by
  unfold k2_pay1 edgeAt dotAt
  dsimp only
  rw [addf_apply, addf_apply, addf_apply]
  rw [matmul_at, matmul_at, broadcastTo_1b_ab_apply, broadcastTo_1b_ab_apply, shapeCast_self, shapeCast_self, shapeCast_self]
  rfl

/-! ## The blocks, as rows of the arrays the region finds -/

variable (V : (c : Dev nD) → (b : Ref sig .tc) → Buf (Elt Ideal) ((c : Thread nD τ).loc b))

/-- The printed index maps over the 200 grid points: the three row windows sit at block row t, the weights and the
    bias rows at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The function the messages' array ends at: `edge` of the arrays as the region finds them. -/
abbrev G (c : Dev nD) : Rows 1600000 :=
  edge (n := 1600000) (V c (Pipeline.arrRef spec2 0)) (V c (Pipeline.arrRef spec2 1)) (V c (Pipeline.arrRef spec2 2)) (V c (Pipeline.arrRef spec2 4))
    (fun q => (V c (Pipeline.arrRef spec2 3) : S1x64.Idx → EReal) (ix2 (0 : Fin 1) q))
    (fun q => (V c (Pipeline.arrRef spec2 5) : S1x64.Idx → EReal) (ix2 (0 : Fin 1) q))

/-- `G` at an index, from the index's two coordinates. -/
theorem G_at (c : Dev nD) (i : S1600000x64.Idx) (P : Fin 1600000) (Q : Fin 64) (h0 : (i 0).val = P.val) (h1 : (i 1).val = Q.val) :
    G V c i = edgeAt (n := 1600000) (V c (Pipeline.arrRef spec2 0)) (V c (Pipeline.arrRef spec2 1)) (V c (Pipeline.arrRef spec2 2)) (V c (Pipeline.arrRef spec2 4))
      (fun q => (V c (Pipeline.arrRef spec2 3) : S1x64.Idx → EReal) (ix2 (0 : Fin 1) q))
      (fun q => (V c (Pipeline.arrRef spec2 5) : S1x64.Idx → EReal) (ix2 (0 : Fin 1) q)) P Q := by
  have hi : i = ix2 P Q := funext fun a => Fin.ext (by
    match a with
    | ⟨0, _⟩ => exact h0
    | ⟨1, _⟩ => exact h1)
  rw [hi]
  rfl

/-- Entry (p, k) of the gathered rows' block at point t is entry (8000·t + p, k) of the array. -/
theorem blk0 (c : Dev nD) (t : Fin cfg2.N) (p : Fin 8000) (k : Fin 64) (i : S1600000x64.Idx)
    (hi0 : (i 0).val = t.val * 8000 + p.val) (hi1 : (i 1).val = k.val) :
    (iblk2 V c 0 t : Vec Ideal S8000x64 .f32) (ix2 p k) = (V c (Pipeline.arrRef spec2 0) : S1600000x64.Idx → EReal) i := by
  obtain ⟨e0, e1, -⟩ := idx_facts t
  unfold iblk2
  rw [View.read_apply]
  refine congrArg (V c (Pipeline.arrRef spec2 0)) (funext fun a => Fin.ext ?_)
  match a with
  | ⟨0, _⟩ => show win2_0.index t 0 * 8000 + 1 * p.val = (i 0).val; rw [e0, hi0]; omega
  | ⟨1, _⟩ => show win2_0.index t 1 * 64 + 1 * k.val = (i 1).val; rw [e1, hi1]; omega

/-- The same for the edge attributes' block. -/
theorem blk1 (c : Dev nD) (t : Fin cfg2.N) (p : Fin 8000) (k : Fin 64) (i : S1600000x64.Idx)
    (hi0 : (i 0).val = t.val * 8000 + p.val) (hi1 : (i 1).val = k.val) :
    (iblk2 V c 1 t : Vec Ideal S8000x64 .f32) (ix2 p k) = (V c (Pipeline.arrRef spec2 1) : S1600000x64.Idx → EReal) i := by
  obtain ⟨-, -, e0, e1, -⟩ := idx_facts t
  unfold iblk2
  rw [View.read_apply]
  refine congrArg (V c (Pipeline.arrRef spec2 1)) (funext fun a => Fin.ext ?_)
  match a with
  | ⟨0, _⟩ => show win2_1.index t 0 * 8000 + 1 * p.val = (i 0).val; rw [e0, hi0]; omega
  | ⟨1, _⟩ => show win2_1.index t 1 * 64 + 1 * k.val = (i 1).val; rw [e1, hi1]; omega

/-- A weight matrix's one block is the matrix. -/
theorem blk2 (c : Dev nD) (t : Fin cfg2.N) (k q : Fin 64) :
    (iblk2 V c 2 t : Vec Ideal S64x64 .f32) (ix2 k q) = (V c (Pipeline.arrRef spec2 2) : S64x64.Idx → EReal) (ix2 k q) := by
  obtain ⟨-, -, -, -, e0, e1, -⟩ := idx_facts t
  unfold iblk2
  rw [View.read_apply]
  refine congrArg (V c (Pipeline.arrRef spec2 2)) (funext fun a => Fin.ext ?_)
  match a with
  | ⟨0, _⟩ => show win2_2.index t 0 * 64 + 1 * k.val = k.val; rw [e0]; omega
  | ⟨1, _⟩ => show win2_2.index t 1 * 64 + 1 * q.val = q.val; rw [e1]; omega

theorem blk4 (c : Dev nD) (t : Fin cfg2.N) (k q : Fin 64) :
    (iblk2 V c 4 t : Vec Ideal S64x64 .f32) (ix2 k q) = (V c (Pipeline.arrRef spec2 4) : S64x64.Idx → EReal) (ix2 k q) := by
  obtain ⟨-, -, -, -, -, -, -, -, e0, e1, -⟩ := idx_facts t
  unfold iblk2
  rw [View.read_apply]
  refine congrArg (V c (Pipeline.arrRef spec2 4)) (funext fun a => Fin.ext ?_)
  match a with
  | ⟨0, _⟩ => show win2_4.index t 0 * 64 + 1 * k.val = k.val; rw [e0]; omega
  | ⟨1, _⟩ => show win2_4.index t 1 * 64 + 1 * q.val = q.val; rw [e1]; omega

/-- A bias row's one block is the row. -/
theorem blk3 (c : Dev nD) (t : Fin cfg2.N) (q : Fin 64) :
    (iblk2 V c 3 t : Vec Ideal S1x64 .f32) (ix2 (0 : Fin 1) q) = (V c (Pipeline.arrRef spec2 3) : S1x64.Idx → EReal) (ix2 (0 : Fin 1) q) := by
  obtain ⟨-, -, -, -, -, -, e0, e1, -⟩ := idx_facts t
  unfold iblk2
  rw [View.read_apply]
  refine congrArg (V c (Pipeline.arrRef spec2 3)) (funext fun a => Fin.ext ?_)
  match a with
  | ⟨0, _⟩ => show win2_3.index t 0 * 1 + 1 * 0 = 0; rw [e0]
  | ⟨1, _⟩ => show win2_3.index t 1 * 64 + 1 * q.val = q.val; rw [e1]; omega

theorem blk5 (c : Dev nD) (t : Fin cfg2.N) (q : Fin 64) :
    (iblk2 V c 5 t : Vec Ideal S1x64 .f32) (ix2 (0 : Fin 1) q) = (V c (Pipeline.arrRef spec2 5) : S1x64.Idx → EReal) (ix2 (0 : Fin 1) q) := by
  obtain ⟨-, -, -, -, -, -, -, -, -, -, e0, e1, -⟩ := idx_facts t
  unfold iblk2
  rw [View.read_apply]
  refine congrArg (V c (Pipeline.arrRef spec2 5)) (funext fun a => Fin.ext ?_)
  match a with
  | ⟨0, _⟩ => show win2_5.index t 0 * 1 + 1 * 0 = 0; rw [e0]
  | ⟨1, _⟩ => show win2_5.index t 1 * 64 + 1 * q.val = q.val; rw [e1]; omega

/-! ## What a point writes back, the cover, the array after the region -/

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S8000x64) hz, View.ld_unit_zero (S := S64x64) hz, View.ld_unit_zero (S := S1x64) hz]
  funext j
  show k2_pay1 (F := Ideal) (iblk2 V c 0 t) (iblk2 V c 1 t) (iblk2 V c 2 t) (iblk2 V c 4 t) (iblk2 V c 3 t) (iblk2 V c 5 t) j
    = G V c (((cfg2.win 6).blk t).view.emb j)
  obtain ⟨p, q, rfl⟩ : ∃ (p : Fin 8000) (q : Fin 64), j = ix2 p q := ⟨j 0, j 1, eq_ix2 j⟩
  obtain ⟨-, -, -, -, -, -, -, -, -, -, -, -, e0, e1⟩ := idx_facts t
  have ht : t.val < 200 := by have h := t.isLt; have hN : cfg2.N = 200 := N_2; omega
  have hb : t.val * 8000 + p.val < 1600000 := by have := p.isLt; omega
  refine ((pay_at _ _ _ _ _ _ p q).trans ?_).trans (G_at V c _ ⟨t.val * 8000 + p.val, hb⟩ q ?_ ?_).symm
  · exact edgeAt_congr _ _ _ _ _ _ _ _ _ _ _ _ p ⟨t.val * 8000 + p.val, hb⟩ q
      (fun k => blk0 V c t p k _ rfl rfl) (fun k => blk1 V c t p k _ rfl rfl)
      (fun k => blk2 V c t k q) (fun k => blk4 V c t k q) (blk3 V c t q) (blk5 V c t q)
  · show win2_6.index t 0 * 8000 + 1 * p.val = t.val * 8000 + p.val
    rw [e0]; omega
  · show win2_6.index t 1 * 64 + 1 * q.val = q.val
    rw [e1]; omega

/-- An index of the messages' array is in point t's block iff each coordinate is in the block's range on its axis. -/
theorem mem_blk (t : Fin cfg2.N) (i : S1600000x64.Idx) :
    i ∈ ((cfg2.win 6).blk t).view.set ↔ ∀ a : Fin 2, win2_6.index t a * S8000x64.size a ≤ (i a).val ∧ (i a).val < win2_6.index t a * S8000x64.size a + S8000x64.size a := by
  show i ∈ ((View.whole main_v28).slice (win2_6.rect t)).set ↔ _
  rw [View.set_slice_whole, Rect.mem_set_unit]
  exact Iff.rfl

/-- Row r lies in the block of point r / 8000: the 200 blocks tile the array. -/
theorem cover (i : S1600000x64.Idx) : ∃ t : Fin cfg2.N, (cfg2.win 6).flush t = true ∧ i ∈ ((cfg2.win 6).blk t).view.set := by
  have hi0 : (i 0).val < 1600000 := (i 0).isLt
  have hi1 : (i 1).val < 64 := (i 1).isLt
  have hN : cfg2.N = 200 := N_2
  obtain ⟨t, ht⟩ : ∃ t : Fin cfg2.N, t.val = (i 0).val / 8000 := ⟨⟨(i 0).val / 8000, by rw [hN]; omega⟩, rfl⟩
  obtain ⟨-, -, -, -, -, -, -, -, -, -, -, -, e0, e1⟩ := idx_facts t
  refine ⟨t, flush2_6 t, ?_⟩
  rw [mem_blk]
  intro a
  match a with
  | ⟨0, _⟩ =>
    show win2_6.index t 0 * 8000 ≤ (i 0).val ∧ (i 0).val < win2_6.index t 0 * 8000 + 8000
    rw [e0, ht]; omega
  | ⟨1, _⟩ =>
    show win2_6.index t 1 * 64 ≤ (i 1).val ∧ (i 1).val < win2_6.index t 1 * 64 + 64
    rw [e1]; omega

/-- After the region the messages' array is `edge` of the arrays the region found. -/
theorem final (c : Dev nD) : (dat2 V c).arrAt 6 cfg2.N = G V c :=
  (dat2 V c).arrAt_eq_of_cover 6 (G V c) (fun t _ => flushed_eq V c t) cover

end Cert.KernelIdeal.Edge2

end
-- ==== Proof.Resid3.lean ====
/-
  The second node-update kernel, one block of 4000 nodes at a time: the first one without the final maximum.

  A grid point t takes rows 4000·t … 4000·t + 3999 of the summed messages and of the first layer's node features, the
  64 × 64 weight matrix and the bias row whole, and writes the same rows of the result.  Entry (p, q) of what it
  writes is  (agg[p,q] + ∑ₖ x[p,k]·Ws[k,q]) + bs[q]:  the matrix product into a zero accumulator is the plain sum over
  the contracted axis, the change of float format is the identity on the extended reals, the bias row broadcast over
  the rows reads its entry q.  The 25 blocks tile the 100 000 rows, so the result array is that function of the
  arrays the region found, row by row.
-/
import proofs.«119272_j64201171140658_1_alg».proof.Proof.Gen.KernelIdeal.Frame
import proofs.«119272_j64201171140658_1_alg».proof.Proof.Spec
import proofs.«119272_j64201171140658_1_alg».proof.Proof.LibMatmulAt
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Resid3

open Cert.KernelIdeal Cert.KernelIdeal.Gen Cert.Spec

theorem hz : (![0, 0] : Fin 2 → Nat) = fun _ => 0 := funext fun a => by fin_cases a <;> rfl

/-! ## Where the block's matrix product reads its operands -/

theorem lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of a block's product into zero: the sum over the 64 features. -/
theorem matmul_at {φ₁ φ₂ : FTy} (l : FVec Ideal S4000x64 φ₁) (r : FVec Ideal S64x64 φ₂) (p : Fin 4000) (q : Fin 64) :
    matmul (F := Ideal) dot_S4000x64_S64x64_S4000x64_1_0_0_1_n_n none l r (constant S4000x64 .f32 0x00000000#32) (ix2 p q)
      = ∑ k : Fin 64, l (ix2 p k) * r (ix2 k q) :=
  MatmulAt.matmul_zero_at dot_S4000x64_S64x64_S4000x64_1_0_0_1_n_n rfl rfl lhs_0 lhs_1 rhs_0 rhs_1 none l r p q

/-! ## What one grid point stores, entry by entry -/

/-- The stored value at (p, q), from the four blocks the body loads: the node rows, the weights, the summed
    messages, the bias row. -/
theorem pay_at (xb ab : Vec Ideal S4000x64 .f32) (W : Vec Ideal S64x64 .f32) (b : Vec Ideal S1x64 .f32)
    (p : Fin 4000) (q : Fin 64) :
    k3_pay1 (F := Ideal) xb W ab b (ix2 p q)
      = residAt (n := 4000) ab xb W (fun q => b (ix2 (0 : Fin 1) q)) p q := by
  unfold k3_pay1 residAt dotAt
  dsimp only
  rw [addf_apply, addf_apply, matmul_at, broadcastTo_1b_ab_apply, shapeCast_self, shapeCast_self, shapeCast_self]
  rfl

/-! ## The blocks, as rows of the arrays the region finds -/

variable (V : (c : Dev nD) → (b : Ref sig .tc) → Buf (Elt Ideal) ((c : Thread nD τ).loc b))

/-- The printed index maps over the 25 grid points: the three row windows sit at block row t, the weights and the
    bias row at their one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The function the output array ends at, of the arrays as the region finds them. -/
abbrev G (c : Dev nD) : Rows 100000 :=
  resid (n := 100000) (V c (Pipeline.arrRef spec3 0)) (V c (Pipeline.arrRef spec3 1)) (V c (Pipeline.arrRef spec3 2))
    (fun q => (V c (Pipeline.arrRef spec3 3) : S1x64.Idx → EReal) (ix2 (0 : Fin 1) q))

/-- `G` at an index, from the index's two coordinates. -/
theorem G_at (c : Dev nD) (i : S100000x64.Idx) (P : Fin 100000) (Q : Fin 64) (h0 : (i 0).val = P.val) (h1 : (i 1).val = Q.val) :
    G V c i = residAt (n := 100000) (V c (Pipeline.arrRef spec3 0)) (V c (Pipeline.arrRef spec3 1)) (V c (Pipeline.arrRef spec3 2))
      (fun q => (V c (Pipeline.arrRef spec3 3) : S1x64.Idx → EReal) (ix2 (0 : Fin 1) q)) P Q := by
  have hi : i = ix2 P Q := funext fun a => Fin.ext (by
    match a with
    | ⟨0, _⟩ => exact h0
    | ⟨1, _⟩ => exact h1)
  rw [hi]
  rfl

/-- Entry (p, k) of the summed messages' block at point t is entry (4000·t + p, k) of the array. -/
theorem blk0 (c : Dev nD) (t : Fin cfg3.N) (p : Fin 4000) (k : Fin 64) (i : S100000x64.Idx)
    (hi0 : (i 0).val = t.val * 4000 + p.val) (hi1 : (i 1).val = k.val) :
    (iblk3 V c 0 t : Vec Ideal S4000x64 .f32) (ix2 p k) = (V c (Pipeline.arrRef spec3 0) : S100000x64.Idx → EReal) i := by
  obtain ⟨e0, e1, -⟩ := idx_facts t
  unfold iblk3
  rw [View.read_apply]
  refine congrArg (V c (Pipeline.arrRef spec3 0)) (funext fun a => Fin.ext ?_)
  match a with
  | ⟨0, _⟩ => show win3_0.index t 0 * 4000 + 1 * p.val = (i 0).val; rw [e0, hi0]; omega
  | ⟨1, _⟩ => show win3_0.index t 1 * 64 + 1 * k.val = (i 1).val; rw [e1, hi1]; omega

/-- The same for the node features' block. -/
theorem blk1 (c : Dev nD) (t : Fin cfg3.N) (p : Fin 4000) (k : Fin 64) (i : S100000x64.Idx)
    (hi0 : (i 0).val = t.val * 4000 + p.val) (hi1 : (i 1).val = k.val) :
    (iblk3 V c 1 t : Vec Ideal S4000x64 .f32) (ix2 p k) = (V c (Pipeline.arrRef spec3 1) : S100000x64.Idx → EReal) i := by
  obtain ⟨-, -, e0, e1, -⟩ := idx_facts t
  unfold iblk3
  rw [View.read_apply]
  refine congrArg (V c (Pipeline.arrRef spec3 1)) (funext fun a => Fin.ext ?_)
  match a with
  | ⟨0, _⟩ => show win3_1.index t 0 * 4000 + 1 * p.val = (i 0).val; rw [e0, hi0]; omega
  | ⟨1, _⟩ => show win3_1.index t 1 * 64 + 1 * k.val = (i 1).val; rw [e1, hi1]; omega

/-- The weight matrix's one block is the matrix. -/
theorem blk2 (c : Dev nD) (t : Fin cfg3.N) (k q : Fin 64) :
    (iblk3 V c 2 t : Vec Ideal S64x64 .f32) (ix2 k q) = (V c (Pipeline.arrRef spec3 2) : S64x64.Idx → EReal) (ix2 k q) := by
  obtain ⟨-, -, -, -, e0, e1, -⟩ := idx_facts t
  unfold iblk3
  rw [View.read_apply]
  refine congrArg (V c (Pipeline.arrRef spec3 2)) (funext fun a => Fin.ext ?_)
  match a with
  | ⟨0, _⟩ => show win3_2.index t 0 * 64 + 1 * k.val = k.val; rw [e0]; omega
  | ⟨1, _⟩ => show win3_2.index t 1 * 64 + 1 * q.val = q.val; rw [e1]; omega

/-- The bias row's one block is the row. -/
theorem blk3 (c : Dev nD) (t : Fin cfg3.N) (q : Fin 64) :
    (iblk3 V c 3 t : Vec Ideal S1x64 .f32) (ix2 (0 : Fin 1) q) = (V c (Pipeline.arrRef spec3 3) : S1x64.Idx → EReal) (ix2 (0 : Fin 1) q) := by
  obtain ⟨-, -, -, -, -, -, e0, e1, -⟩ := idx_facts t
  unfold iblk3
  rw [View.read_apply]
  refine congrArg (V c (Pipeline.arrRef spec3 3)) (funext fun a => Fin.ext ?_)
  match a with
  | ⟨0, _⟩ => show win3_3.index t 0 * 1 + 1 * 0 = 0; rw [e0]
  | ⟨1, _⟩ => show win3_3.index t 1 * 64 + 1 * q.val = q.val; rw [e1]; omega

/-! ## What a point writes back, the cover, the array after the region -/

/-- What point t writes back is block t of `G`. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S4000x64) hz, View.ld_unit_zero (S := S64x64) hz, View.ld_unit_zero (S := S1x64) hz]
  funext j
  show k3_pay1 (F := Ideal) (iblk3 V c 1 t) (iblk3 V c 2 t) (iblk3 V c 0 t) (iblk3 V c 3 t) j
    = G V c (((cfg3.win 4).blk t).view.emb j)
  obtain ⟨p, q, rfl⟩ : ∃ (p : Fin 4000) (q : Fin 64), j = ix2 p q := ⟨j 0, j 1, eq_ix2 j⟩
  obtain ⟨-, -, -, -, -, -, -, -, e0, e1⟩ := idx_facts t
  have ht : t.val < 25 := by have h := t.isLt; have hN : cfg3.N = 25 := N_3; omega
  have hb : t.val * 4000 + p.val < 100000 := by have := p.isLt; omega
  refine ((pay_at _ _ _ _ p q).trans ?_).trans (G_at V c _ ⟨t.val * 4000 + p.val, hb⟩ q ?_ ?_).symm
  · exact residAt_congr _ _ _ _ _ _ _ _ p ⟨t.val * 4000 + p.val, hb⟩ q
      (blk0 V c t p q _ rfl rfl) (fun k => blk1 V c t p k _ rfl rfl) (fun k => blk2 V c t k q) (blk3 V c t q)
  · show win3_4.index t 0 * 4000 + 1 * p.val = t.val * 4000 + p.val
    rw [e0]; omega
  · show win3_4.index t 1 * 64 + 1 * q.val = q.val
    rw [e1]; omega

/-- An index of the output array is in point t's block iff each coordinate is in the block's range on its axis. -/
theorem mem_blk (t : Fin cfg3.N) (i : S100000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v33).slice (win3_4.rect t)).set ↔ _
  rw [View.set_slice_whole, Rect.mem_set_unit]
  exact Iff.rfl

/-- Row r lies in the block of point r / 4000: the 25 blocks tile the array. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, -, -, e0, e1⟩ := idx_facts t
  refine ⟨t, flush3_4 t, ?_⟩
  rw [mem_blk]
  intro a
  match a with
  | ⟨0, _⟩ =>
    show win3_4.index t 0 * 4000 ≤ (i 0).val ∧ (i 0).val < win3_4.index t 0 * 4000 + 4000
    rw [e0, ht]; omega
  | ⟨1, _⟩ =>
    show win3_4.index t 1 * 64 ≤ (i 1).val ∧ (i 1).val < win3_4.index t 1 * 64 + 64
    rw [e1]; omega

/-- After the region the output array is `G` of the arrays the region found. -/
theorem final (c : Dev nD) : (dat3 V c).arrAt 4 cfg3.N = G V c :=
  (dat3 V c).arrAt_eq_of_cover 4 (G V c) (fun t _ => flushed_eq V c t) cover

end Cert.KernelIdeal.Resid3

end
-- ==== Proof.Chain.lean ====
/-
  The arrays the program holds at each boundary between its host operations and its four kernels, as functions of
  the argument arrays.

  The program alternates host operations and kernels: gather the node rows to the edges; the message kernel; sum
  the messages into the nodes; the node-update kernel (with the maximum); then the same four steps again on the
  updated nodes (without the maximum).  A host operation's result is that operation of the arrays before it; a
  kernel's output array is the specification's function of the arrays it found (the four region modules); a buffer
  that a stretch of host operations does not write and that is not a kernel's output is unchanged across it.  Walked
  from the launch to the return this gives the result array as the two-layer network of the argument arrays.
-/
import proofs.«119272_j64201171140658_1_alg».proof.Proof.Gen.KernelIdeal.Frame
import proofs.«119272_j64201171140658_1_alg».proof.Proof.Spec
import proofs.«119272_j64201171140658_1_alg».proof.Proof.Edge0
import proofs.«119272_j64201171140658_1_alg».proof.Proof.Resid1
import proofs.«119272_j64201171140658_1_alg».proof.Proof.Edge2
import proofs.«119272_j64201171140658_1_alg».proof.Proof.Resid3
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Spec

/-! ## The gather, the sum into nodes and a bias vector, as this program's host operations apply them -/

/-- The edge list's row r as a vector. -/
abbrev row0 (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
abbrev row1 (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The source indices: row 0 of the edge list, a negative index wrapped by the number of nodes, as a column. -/
abbrev srcIdx (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (row0 e) (broadcastInDim S1600000 ![] bcast_S_S1600000 (constantI S_ 32 0#32)))
      (addi (row0 e) (broadcastInDim S1600000 ![] bcast_S_S1600000 (constantI S_ 32 100000#32))) (row0 e))

/-- The destination indices: row 1 of the edge list as a column. -/
abbrev dstIdx (e : (⟨S2x1600000, .i32⟩ : BufTy).Contents (Elt Ideal)) : (⟨S1600000x1, .i32⟩ : BufTy).Contents (Elt Ideal) :=
  broadcastInDim S1600000x1 ![0] bcast_S1600000_S1600000x1_0 (row1 e)

/-- Node rows gathered to the edges. -/
abbrev gath (e : (⟨S2x1600000, .i32⟩ : BufTy).Contents (Elt Ideal)) : Rows 100000 → Rows 1600000 := fun x =>
  Host.gather gather_S100000x64_S1600000x1_S1600000x64_1_0_n_n_0_1_164 (x : FVec Ideal S100000x64 .f32) (srcIdx e)

/-- Edge rows summed into the nodes, from zero. -/
abbrev scat (e : (⟨S2x1600000, .i32⟩ : BufTy).Contents (Elt Ideal)) : Rows 1600000 → Rows 100000 := fun u =>
  Host.scatterAdd (F := Ideal) scatter_S100000x64_S1600000x1_S1600000x64_1_0_0_1
    (broadcastInDim S100000x64 ![] bcast_S_S100000x64 (constant (F := Ideal) S_ .f32 0x00000000#32)) (dstIdx e) (u : FVec Ideal S1600000x64 .f32)

/-- A bias vector as a function of the feature. -/
def bias (b : FVec Ideal S64 .f32) : Bias := fun q => b (ix1 q)

/-- A bias vector reshaped to one row, read at (0, q). -/
theorem bias_row (b : FVec Ideal S64 .f32) :
    (fun q => (shapeCast S1x64 b shapeCasts_S64_S1x64 : S1x64.Idx → EReal) (ix2 (0 : Fin 1) q)) = bias b :=
  funext fun q => shapeCast_a_1a_apply b shapeCasts_S64_S1x64 0 q

variable (m : (ℓ : Loc nD τ sig) → Buf (Elt Ideal) ℓ) (ρ : Dev nD → PrngReg) (c : Dev nD)

/-! ## The argument arrays -/

abbrev a0 : Rows 100000 := m ((c : Thread nD τ).loc main_arg0)
abbrev a1 : (⟨S2x1600000, .i32⟩ : BufTy).Contents (Elt Ideal) := m ((c : Thread nD τ).loc main_arg1)
abbrev a2 : Rows 1600000 := m ((c : Thread nD τ).loc main_arg2)
abbrev a3 : Mat := m ((c : Thread nD τ).loc main_arg3)
abbrev a4 : FVec Ideal S64 .f32 := m ((c : Thread nD τ).loc main_arg4)
abbrev a5 : Mat := m ((c : Thread nD τ).loc main_arg5)
abbrev a6 : FVec Ideal S64 .f32 := m ((c : Thread nD τ).loc main_arg6)
abbrev a7 : Mat := m ((c : Thread nD τ).loc main_arg7)
abbrev a8 : FVec Ideal S64 .f32 := m ((c : Thread nD τ).loc main_arg8)
abbrev a9 : Mat := m ((c : Thread nD τ).loc main_arg9)
abbrev a10 : FVec Ideal S64 .f32 := m ((c : Thread nD τ).loc main_arg10)
abbrev a11 : Mat := m ((c : Thread nD τ).loc main_arg11)
abbrev a12 : FVec Ideal S64 .f32 := m ((c : Thread nD τ).loc main_arg12)
abbrev a13 : Mat := m ((c : Thread nD τ).loc main_arg13)
abbrev a14 : FVec Ideal S64 .f32 := m ((c : Thread nD τ).loc main_arg14)

/-- The first layer's messages, its updated nodes, the second layer's messages. -/
abbrev E1 : Rows 1600000 := edge (n := 1600000) (gath (a1 m c) (a0 m c)) (a2 m c) (a3 m c) (a5 m c) (bias (a4 m c)) (bias (a6 m c))
abbrev H1 : Rows 100000 := relu (n := 100000) (resid (n := 100000) (scat (a1 m c) (E1 m c)) (a0 m c) (a7 m c) (bias (a8 m c)))
abbrev E2 : Rows 1600000 := edge (n := 1600000) (gath (a1 m c) (H1 m c)) (a2 m c) (a9 m c) (a11 m c) (bias (a10 m c)) (bias (a12 m c))

-- a stretch of host operations leaves a buffer it does not write as it was
set_option hygiene false in
local macro "keeps" ops:ident Wp:ident b:ident : term =>
  `((by after_results : StableHlo.after $ops ($Wp m ρ c) (Proc.devRef .tc $b) = $Wp m ρ c (Proc.devRef .tc $b)))

/-! ## After the first host stretch: the gathered rows, the reshaped biases, the index rows; the arguments as launched -/

theorem W1_v10 : W1 m ρ c (Proc.devRef .tc main_v10) = gath (a1 m c) (a0 m c) := by
  show StableHlo.after hostOps0 (W0 m ρ c) (Proc.devRef .tc main_v10) = _
  after_results; rfl
theorem W1_v11 : W1 m ρ c (Proc.devRef .tc main_v11) = shapeCast S1x64 (a4 m c) shapeCasts_S64_S1x64 := by
  show StableHlo.after hostOps0 (W0 m ρ c) (Proc.devRef .tc main_v11) = _
  after_results; rfl
theorem W1_v12 : W1 m ρ c (Proc.devRef .tc main_v12) = shapeCast S1x64 (a6 m c) shapeCasts_S64_S1x64 := by
  show StableHlo.after hostOps0 (W0 m ρ c) (Proc.devRef .tc main_v12) = _
  after_results; rfl
theorem W1_v1 : W1 m ρ c (Proc.devRef .tc main_v1) = row0 (a1 m c) := by
  show StableHlo.after hostOps0 (W0 m ρ c) (Proc.devRef .tc main_v1) = _
  after_results; rfl
theorem W1_v3 : W1 m ρ c (Proc.devRef .tc main_v3) = row1 (a1 m c) := by
  show StableHlo.after hostOps0 (W0 m ρ c) (Proc.devRef .tc main_v3) = _
  after_results; rfl
theorem W1_arg0 : W1 m ρ c (Proc.devRef .tc main_arg0) = a0 m c := (keeps hostOps0 W0 main_arg0).trans rfl
theorem W1_arg2 : W1 m ρ c (Proc.devRef .tc main_arg2) = a2 m c := (keeps hostOps0 W0 main_arg2).trans rfl
theorem W1_arg3 : W1 m ρ c (Proc.devRef .tc main_arg3) = a3 m c := (keeps hostOps0 W0 main_arg3).trans rfl
theorem W1_arg5 : W1 m ρ c (Proc.devRef .tc main_arg5) = a5 m c := (keeps hostOps0 W0 main_arg5).trans rfl
theorem W1_arg7 : W1 m ρ c (Proc.devRef .tc main_arg7) = a7 m c := (keeps hostOps0 W0 main_arg7).trans rfl
theorem W1_arg8 : W1 m ρ c (Proc.devRef .tc main_arg8) = a8 m c := (keeps hostOps0 W0 main_arg8).trans rfl
theorem W1_arg9 : W1 m ρ c (Proc.devRef .tc main_arg9) = a9 m c := (keeps hostOps0 W0 main_arg9).trans rfl
theorem W1_arg10 : W1 m ρ c (Proc.devRef .tc main_arg10) = a10 m c := (keeps hostOps0 W0 main_arg10).trans rfl
theorem W1_arg11 : W1 m ρ c (Proc.devRef .tc main_arg11) = a11 m c := (keeps hostOps0 W0 main_arg11).trans rfl
theorem W1_arg12 : W1 m ρ c (Proc.devRef .tc main_arg12) = a12 m c := (keeps hostOps0 W0 main_arg12).trans rfl
theorem W1_arg13 : W1 m ρ c (Proc.devRef .tc main_arg13) = a13 m c := (keeps hostOps0 W0 main_arg13).trans rfl
theorem W1_arg14 : W1 m ρ c (Proc.devRef .tc main_arg14) = a14 m c := (keeps hostOps0 W0 main_arg14).trans rfl

/-! ## After the first message kernel -/

theorem W2_v13 : W2 m ρ c (Proc.devRef .tc main_v13) = E1 m c := by
  refine (W2_arr m ρ c 6).trans ((Edge0.final (V1 m ρ) c).trans ?_)
  exact edge_args _ _ _ _ _ _ _ _ _ _ _ _ (W1_v10 m ρ c) (W1_arg2 m ρ c) (W1_arg3 m ρ c) (W1_arg5 m ρ c)
    ((congrArg (fun (z : S1x64.Idx → EReal) => fun q => z (ix2 (0 : Fin 1) q)) (W1_v11 m ρ c)).trans (bias_row (a4 m c)))
    ((congrArg (fun (z : S1x64.Idx → EReal) => fun q => z (ix2 (0 : Fin 1) q)) (W1_v12 m ρ c)).trans (bias_row (a6 m c)))
theorem W2_v1 : W2 m ρ c (Proc.devRef .tc main_v1) = row0 (a1 m c) := (W2_of_ne m ρ c main_v1 (by decide)).trans (W1_v1 m ρ c)
theorem W2_v3 : W2 m ρ c (Proc.devRef .tc main_v3) = row1 (a1 m c) := (W2_of_ne m ρ c main_v3 (by decide)).trans (W1_v3 m ρ c)
theorem W2_arg2 : W2 m ρ c (Proc.devRef .tc main_arg2) = a2 m c :=
  (W2_arr m ρ c 1).trans (((dat0 (V1 m ρ) c).arrAt_in 1 rfl _).trans ((A_eq0 (V1 m ρ) c 1).trans (W1_arg2 m ρ c)))
theorem W2_arg0 : W2 m ρ c (Proc.devRef .tc main_arg0) = a0 m c := (W2_of_ne m ρ c main_arg0 (by decide)).trans (W1_arg0 m ρ c)
theorem W2_arg7 : W2 m ρ c (Proc.devRef .tc main_arg7) = a7 m c := (W2_of_ne m ρ c main_arg7 (by decide)).trans (W1_arg7 m ρ c)
theorem W2_arg8 : W2 m ρ c (Proc.devRef .tc main_arg8) = a8 m c := (W2_of_ne m ρ c main_arg8 (by decide)).trans (W1_arg8 m ρ c)
theorem W2_arg9 : W2 m ρ c (Proc.devRef .tc main_arg9) = a9 m c := (W2_of_ne m ρ c main_arg9 (by decide)).trans (W1_arg9 m ρ c)
theorem W2_arg10 : W2 m ρ c (Proc.devRef .tc main_arg10) = a10 m c := (W2_of_ne m ρ c main_arg10 (by decide)).trans (W1_arg10 m ρ c)
theorem W2_arg11 : W2 m ρ c (Proc.devRef .tc main_arg11) = a11 m c := (W2_of_ne m ρ c main_arg11 (by decide)).trans (W1_arg11 m ρ c)
theorem W2_arg12 : W2 m ρ c (Proc.devRef .tc main_arg12) = a12 m c := (W2_of_ne m ρ c main_arg12 (by decide)).trans (W1_arg12 m ρ c)
theorem W2_arg13 : W2 m ρ c (Proc.devRef .tc main_arg13) = a13 m c := (W2_of_ne m ρ c main_arg13 (by decide)).trans (W1_arg13 m ρ c)
theorem W2_arg14 : W2 m ρ c (Proc.devRef .tc main_arg14) = a14 m c := (W2_of_ne m ρ c main_arg14 (by decide)).trans (W1_arg14 m ρ c)

/-! ## After the second host stretch: the messages summed into the nodes -/

theorem W3_v16 : W3 m ρ c (Proc.devRef .tc main_v16) = scat (a1 m c) (E1 m c) := by
  show StableHlo.after hostOps1 (W2 m ρ c) (Proc.devRef .tc main_v16) = _
  after_results
  rw [W2_v3, W2_v13]
theorem W3_v17 : W3 m ρ c (Proc.devRef .tc main_v17) = shapeCast S1x64 (a8 m c) shapeCasts_S64_S1x64 := by
  show StableHlo.after hostOps1 (W2 m ρ c) (Proc.devRef .tc main_v17) = _
  after_results
  rw [W2_arg8]; rfl
theorem W3_v1 : W3 m ρ c (Proc.devRef .tc main_v1) = row0 (a1 m c) := (keeps hostOps1 W2 main_v1).trans (W2_v1 m ρ c)
theorem W3_v3 : W3 m ρ c (Proc.devRef .tc main_v3) = row1 (a1 m c) := (keeps hostOps1 W2 main_v3).trans (W2_v3 m ρ c)
theorem W3_arg0 : W3 m ρ c (Proc.devRef .tc main_arg0) = a0 m c := (keeps hostOps1 W2 main_arg0).trans (W2_arg0 m ρ c)
theorem W3_arg2 : W3 m ρ c (Proc.devRef .tc main_arg2) = a2 m c := (keeps hostOps1 W2 main_arg2).trans (W2_arg2 m ρ c)
theorem W3_arg7 : W3 m ρ c (Proc.devRef .tc main_arg7) = a7 m c := (keeps hostOps1 W2 main_arg7).trans (W2_arg7 m ρ c)
theorem W3_arg9 : W3 m ρ c (Proc.devRef .tc main_arg9) = a9 m c := (keeps hostOps1 W2 main_arg9).trans (W2_arg9 m ρ c)
theorem W3_arg10 : W3 m ρ c (Proc.devRef .tc main_arg10) = a10 m c := (keeps hostOps1 W2 main_arg10).trans (W2_arg10 m ρ c)
theorem W3_arg11 : W3 m ρ c (Proc.devRef .tc main_arg11) = a11 m c := (keeps hostOps1 W2 main_arg11).trans (W2_arg11 m ρ c)
theorem W3_arg12 : W3 m ρ c (Proc.devRef .tc main_arg12) = a12 m c := (keeps hostOps1 W2 main_arg12).trans (W2_arg12 m ρ c)
theorem W3_arg13 : W3 m ρ c (Proc.devRef .tc main_arg13) = a13 m c := (keeps hostOps1 W2 main_arg13).trans (W2_arg13 m ρ c)
theorem W3_arg14 : W3 m ρ c (Proc.devRef .tc main_arg14) = a14 m c := (keeps hostOps1 W2 main_arg14).trans (W2_arg14 m ρ c)

/-! ## After the first node-update kernel -/

theorem W4_v18 : W4 m ρ c (Proc.devRef .tc main_v18) = H1 m c := by
  refine (W4_arr m ρ c 4).trans ((Resid1.final (V3 m ρ) c).trans ?_)
  exact congrArg (relu (n := 100000)) (resid_args _ _ _ _ _ _ _ _ (W3_v16 m ρ c) (W3_arg0 m ρ c) (W3_arg7 m ρ c)
    ((congrArg (fun (z : S1x64.Idx → EReal) => fun q => z (ix2 (0 : Fin 1) q)) (W3_v17 m ρ c)).trans (bias_row (a8 m c))))
theorem W4_v1 : W4 m ρ c (Proc.devRef .tc main_v1) = row0 (a1 m c) := (W4_of_ne m ρ c main_v1 (by decide)).trans (W3_v1 m ρ c)
theorem W4_v3 : W4 m ρ c (Proc.devRef .tc main_v3) = row1 (a1 m c) := (W4_of_ne m ρ c main_v3 (by decide)).trans (W3_v3 m ρ c)
theorem W4_arg2 : W4 m ρ c (Proc.devRef .tc main_arg2) = a2 m c := (W4_of_ne m ρ c main_arg2 (by decide)).trans (W3_arg2 m ρ c)
theorem W4_arg9 : W4 m ρ c (Proc.devRef .tc main_arg9) = a9 m c := (W4_of_ne m ρ c main_arg9 (by decide)).trans (W3_arg9 m ρ c)
theorem W4_arg10 : W4 m ρ c (Proc.devRef .tc main_arg10) = a10 m c := (W4_of_ne m ρ c main_arg10 (by decide)).trans (W3_arg10 m ρ c)
theorem W4_arg11 : W4 m ρ c (Proc.devRef .tc main_arg11) = a11 m c := (W4_of_ne m ρ c main_arg11 (by decide)).trans (W3_arg11 m ρ c)
theorem W4_arg12 : W4 m ρ c (Proc.devRef .tc main_arg12) = a12 m c := (W4_of_ne m ρ c main_arg12 (by decide)).trans (W3_arg12 m ρ c)
theorem W4_arg13 : W4 m ρ c (Proc.devRef .tc main_arg13) = a13 m c := (W4_of_ne m ρ c main_arg13 (by decide)).trans (W3_arg13 m ρ c)
theorem W4_arg14 : W4 m ρ c (Proc.devRef .tc main_arg14) = a14 m c := (W4_of_ne m ρ c main_arg14 (by decide)).trans (W3_arg14 m ρ c)

/-! ## After the third host stretch: the updated nodes gathered to the edges -/

theorem W5_v25 : W5 m ρ c (Proc.devRef .tc main_v25) = gath (a1 m c) (H1 m c) := by
  show StableHlo.after hostOps2 (W4 m ρ c) (Proc.devRef .tc main_v25) = _
  after_results
  rw [W4_v18, W4_v1]
theorem W5_v26 : W5 m ρ c (Proc.devRef .tc main_v26) = shapeCast S1x64 (a10 m c) shapeCasts_S64_S1x64 := by
  show StableHlo.after hostOps2 (W4 m ρ c) (Proc.devRef .tc main_v26) = _
  after_results
  rw [W4_arg10]; rfl
theorem W5_v27 : W5 m ρ c (Proc.devRef .tc main_v27) = shapeCast S1x64 (a12 m c) shapeCasts_S64_S1x64 := by
  show StableHlo.after hostOps2 (W4 m ρ c) (Proc.devRef .tc main_v27) = _
  after_results
  rw [W4_arg12]; rfl
theorem W5_v3 : W5 m ρ c (Proc.devRef .tc main_v3) = row1 (a1 m c) := (keeps hostOps2 W4 main_v3).trans (W4_v3 m ρ c)
theorem W5_v18 : W5 m ρ c (Proc.devRef .tc main_v18) = H1 m c := (keeps hostOps2 W4 main_v18).trans (W4_v18 m ρ c)
theorem W5_arg2 : W5 m ρ c (Proc.devRef .tc main_arg2) = a2 m c := (keeps hostOps2 W4 main_arg2).trans (W4_arg2 m ρ c)
theorem W5_arg9 : W5 m ρ c (Proc.devRef .tc main_arg9) = a9 m c := (keeps hostOps2 W4 main_arg9).trans (W4_arg9 m ρ c)
theorem W5_arg11 : W5 m ρ c (Proc.devRef .tc main_arg11) = a11 m c := (keeps hostOps2 W4 main_arg11).trans (W4_arg11 m ρ c)
theorem W5_arg13 : W5 m ρ c (Proc.devRef .tc main_arg13) = a13 m c := (keeps hostOps2 W4 main_arg13).trans (W4_arg13 m ρ c)
theorem W5_arg14 : W5 m ρ c (Proc.devRef .tc main_arg14) = a14 m c := (keeps hostOps2 W4 main_arg14).trans (W4_arg14 m ρ c)

/-! ## After the second message kernel -/

theorem W6_v28 : W6 m ρ c (Proc.devRef .tc main_v28) = E2 m c := by
  refine (W6_arr m ρ c 6).trans ((Edge2.final (V5 m ρ) c).trans ?_)
  exact edge_args _ _ _ _ _ _ _ _ _ _ _ _ (W5_v25 m ρ c) (W5_arg2 m ρ c) (W5_arg9 m ρ c) (W5_arg11 m ρ c)
    ((congrArg (fun (z : S1x64.Idx → EReal) => fun q => z (ix2 (0 : Fin 1) q)) (W5_v26 m ρ c)).trans (bias_row (a10 m c)))
    ((congrArg (fun (z : S1x64.Idx → EReal) => fun q => z (ix2 (0 : Fin 1) q)) (W5_v27 m ρ c)).trans (bias_row (a12 m c)))
theorem W6_v3 : W6 m ρ c (Proc.devRef .tc main_v3) = row1 (a1 m c) := (W6_of_ne m ρ c main_v3 (by decide)).trans (W5_v3 m ρ c)
theorem W6_v18 : W6 m ρ c (Proc.devRef .tc main_v18) = H1 m c := (W6_of_ne m ρ c main_v18 (by decide)).trans (W5_v18 m ρ c)
theorem W6_arg13 : W6 m ρ c (Proc.devRef .tc main_arg13) = a13 m c := (W6_of_ne m ρ c main_arg13 (by decide)).trans (W5_arg13 m ρ c)
theorem W6_arg14 : W6 m ρ c (Proc.devRef .tc main_arg14) = a14 m c := (W6_of_ne m ρ c main_arg14 (by decide)).trans (W5_arg14 m ρ c)

/-! ## After the fourth host stretch: the second layer's messages summed into the nodes -/

theorem W7_v31 : W7 m ρ c (Proc.devRef .tc main_v31) = scat (a1 m c) (E2 m c) := by
  show StableHlo.after hostOps3 (W6 m ρ c) (Proc.devRef .tc main_v31) = _
  after_results
  rw [W6_v3, W6_v28]
theorem W7_v32 : W7 m ρ c (Proc.devRef .tc main_v32) = shapeCast S1x64 (a14 m c) shapeCasts_S64_S1x64 := by
  show StableHlo.after hostOps3 (W6 m ρ c) (Proc.devRef .tc main_v32) = _
  after_results
  rw [W6_arg14]; rfl
theorem W7_v18 : W7 m ρ c (Proc.devRef .tc main_v18) = H1 m c := (keeps hostOps3 W6 main_v18).trans (W6_v18 m ρ c)
theorem W7_arg13 : W7 m ρ c (Proc.devRef .tc main_arg13) = a13 m c := (keeps hostOps3 W6 main_arg13).trans (W6_arg13 m ρ c)

/-! ## The result -/

/-- After the last kernel the result array is the two-layer network of the argument arrays. -/
theorem W8_v33 : W8 m ρ c (Proc.devRef .tc main_v33)
    = network (gath (a1 m c)) (scat (a1 m c)) (a0 m c) (a2 m c) (a3 m c) (a5 m c) (a7 m c) (bias (a4 m c)) (bias (a6 m c)) (bias (a8 m c))
        (a9 m c) (a11 m c) (a13 m c) (bias (a10 m c)) (bias (a12 m c)) (bias (a14 m c)) := by
  refine (W8_arr m ρ c 4).trans ((Resid3.final (V7 m ρ) c).trans ?_)
  exact resid_args _ _ _ _ _ _ _ _ (W7_v31 m ρ c) (W7_v18 m ρ c) (W7_arg13 m ρ c)
    ((congrArg (fun (z : S1x64.Idx → EReal) => fun q => z (ix2 (0 : Fin 1) q)) (W7_v32 m ρ c)).trans (bias_row (a14 m c)))

end Cert.KernelIdeal.Chain

end
-- ==== Proof.RefValue.lean ====
/-
  The reference program's result as the two-layer network of the specification.

  Each layer of the reference is host operations on whole arrays: a gather of node rows to the edges, two matrix
  products over the 64 features with a bias row added after each (the bias row broadcast over all rows), the sum of the
  edge rows into their destination nodes, a third matrix product and bias, and between the layers a maximum with
  zero.  Read at an index, a host matrix product is the plain sum over the contracted axis and a broadcast bias row
  is its entry at the column, so each stage is the specification's function of the same name; the gather and the
  sum into nodes stay as the host operations they are.
-/
import proofs.«119272_j64201171140658_1_alg».proof.Proof.Gen.ReferenceIdeal.Read
import proofs.«119272_j64201171140658_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

/-- Edge rows, node rows, a weight matrix, a bias vector, the edge list. -/
abbrev FE : Type := FVec Ideal S1600000x64 .f32
abbrev FN : Type := FVec Ideal S100000x64 .f32
abbrev FW : Type := FVec Ideal S64x64 .f32
abbrev FB : Type := FVec Ideal S64 .f32
abbrev FI : Type := (⟨S2x1600000, .i32⟩ : BufTy).Contents (Elt Ideal)

/-- A bias vector as a function of the feature. -/
def bias (b : FB) : Bias := fun q => (b : S64.Idx → EReal) (ix1 q)

/-! ## The host operations read at an index -/

/-- A product of edge rows with a weight matrix, at an index. -/
theorem dotE_at (l : FE) (r : FW) (p : Fin 1600000) (q : Fin 64) :
    (Host.dotGeneral (F := Ideal) dot_S1600000x64_S64x64_S1600000x64_1_0_0_1_n_n none l r : FE) (ix2 p q) = dotAt (n := 1600000) l r p q := by
  refine (val_main_v15_apply l r (ix2 p q)).trans ?_
  unfold dotAt
  refine Finset.sum_congr rfl fun k _ => ?_
  have e1 : lidx_main_v15 (ix2 p q) k = ix2 p k := funext fun a => Fin.ext (by match a with | ⟨0, _⟩ => rfl | ⟨1, _⟩ => rfl)
  have e2 : ridx_main_v15 (ix2 p q) k = ix2 k q := funext fun a => Fin.ext (by match a with | ⟨0, _⟩ => rfl | ⟨1, _⟩ => rfl)
  rw [e1, e2]

/-- A product of node rows with a weight matrix, at an index. -/
theorem dotN_at (l : FN) (r : FW) (p : Fin 100000) (q : Fin 64) :
    (Host.dotGeneral (F := Ideal) dot_S100000x64_S64x64_S100000x64_1_0_0_1_n_n none l r : FN) (ix2 p q) = dotAt (n := 100000) l r p q := by
  refine (val_main_v23_apply l r (ix2 p q)).trans ?_
  unfold dotAt
  refine Finset.sum_congr rfl fun k _ => ?_
  have e1 : lidx_main_v23 (ix2 p q) k = ix2 p k := funext fun a => Fin.ext (by match a with | ⟨0, _⟩ => rfl | ⟨1, _⟩ => rfl)
  have e2 : ridx_main_v23 (ix2 p q) k = ix2 k q := funext fun a => Fin.ext (by match a with | ⟨0, _⟩ => rfl | ⟨1, _⟩ => rfl)
  rw [e1, e2]

/-- A bias vector broadcast over the edge rows, at an index: its entry at the column. -/
theorem biasE_at (b : FB) (p : Fin 1600000) (q : Fin 64) : val_main_v13 (F := Ideal) b (ix2 p q) = bias b q := by
  rw [val_main_v13_apply, val_main_v12_apply]
  exact congrArg b (funext fun a => match a with | ⟨0, _⟩ => rfl)

/-- The same over the node rows. -/
theorem biasN_at (b : FB) (p : Fin 100000) (q : Fin 64) : val_main_v26 (F := Ideal) b (ix2 p q) = bias b q := by
  rw [val_main_v26_apply, val_main_v25_apply]
  exact congrArg b (funext fun a => match a with | ⟨0, _⟩ => rfl)

/-! ## The stages -/

/-- The messages: ((xs·Wm + bm) + e·We) + be on whole arrays. -/
theorem edge_stage (xs e : FE) (Wm We : FW) (bm be : FB) :
    (addf (F := Ideal) (addf (F := Ideal) (addf (F := Ideal) (Host.dotGeneral (F := Ideal) dot_S1600000x64_S64x64_S1600000x64_1_0_0_1_n_n none xs Wm) (val_main_v13 (F := Ideal) bm))
        (Host.dotGeneral (F := Ideal) dot_S1600000x64_S64x64_S1600000x64_1_0_0_1_n_n none e We)) (val_main_v13 (F := Ideal) be) : FE)
      = edge (n := 1600000) xs e Wm We (bias bm) (bias be) := by
  funext i
  obtain ⟨p, q, rfl⟩ : ∃ (p : Fin 1600000) (q : Fin 64), i = ix2 p q := ⟨i 0, i 1, eq_ix2 i⟩
  rw [addf_apply, addf_apply, addf_apply, dotE_at, dotE_at, biasE_at, biasE_at]
  rfl

/-- The node update: (agg + x·Ws) + bs on whole arrays. -/
theorem resid_stage (agg x : FN) (Ws : FW) (bs : FB) :
    (addf (F := Ideal) (addf (F := Ideal) agg (Host.dotGeneral (F := Ideal) dot_S100000x64_S64x64_S100000x64_1_0_0_1_n_n none x Ws)) (val_main_v26 (F := Ideal) bs) : FN)
      = resid (n := 100000) agg x Ws (bias bs) := by
  funext i
  obtain ⟨p, q, rfl⟩ : ∃ (p : Fin 100000) (q : Fin 64), i = ix2 p q := ⟨i 0, i 1, eq_ix2 i⟩
  rw [addf_apply, addf_apply, dotN_at, biasN_at]
  rfl

/-- The maximum with the broadcast zero. -/
theorem relu_stage (h : FN) : (maximumf (F := Ideal) h (val_main_call0_v0 (F := Ideal)) : FN) = relu (n := 100000) h := by
  funext i
  rw [maximumf_apply, val_main_call0_v0_apply, val_main_call0_cst_apply]
  rfl

/-! ## The gather and the sum into nodes, as the reference applies them -/

/-- Node rows gathered to the edges at the edge list's first row (negative indices wrapped). -/
abbrev gath (x1 : FI) : Rows 100000 → Rows 1600000 := fun x =>
  Host.gather gather_S100000x64_S1600000x1_S1600000x64_1_0_n_n_0_1_164 (x : FN) (val_main_v9 (F := Ideal) x1)

/-- Edge rows summed into the nodes at the edge list's second row, from zero. -/
abbrev scat (x1 : FI) : Rows 1600000 → Rows 100000 := fun u =>
  Host.scatterAdd (F := Ideal) scatter_S100000x64_S1600000x1_S1600000x64_1_0_0_1 (val_main_v20 (F := Ideal)) (val_main_v21 (F := Ideal) x1) (u : FE)

/-- The second layer builds its index arrays again, by the same operations. -/
theorem idx34_eq (x1 : FI) : val_main_v34 (F := Ideal) x1 = val_main_v9 (F := Ideal) x1 := rfl
theorem idx46_eq (x1 : FI) : val_main_v46 (F := Ideal) x1 = val_main_v21 (F := Ideal) x1 := rfl
theorem zeros45_eq : val_main_v45 (F := Ideal) = val_main_v20 (F := Ideal) := rfl

/-! ## The result -/

theorem result_eq (x0 : FN) (x1 : FI) (x2 : FE) (x3 : FW) (x4 : FB) (x5 : FW) (x6 : FB) (x7 : FW) (x8 : FB)
    (x9 : FW) (x10 : FB) (x11 : FW) (x12 : FB) (x13 : FW) (x14 : FB) :
    (val_main_v52 (F := Ideal) x0 x1 x2 x3 x4 x5 x6 x7 x8 x9 x10 x11 x12 x13 x14 : FN)
      = network (gath x1) (scat x1) x0 x2 x3 x5 x7 (bias x4) (bias x6) (bias x8) x9 x11 x13 (bias x10) (bias x12) (bias x14) := by
  have h19 : (val_main_v19 (F := Ideal) x0 x1 x2 x3 x4 x5 x6 : FE) = edge (n := 1600000) (gath x1 x0) x2 x3 x5 (bias x4) (bias x6) :=
    edge_stage (val_main_v10 (F := Ideal) x0 x1) x2 x3 x5 x4 x6
  have h27 : (val_main_v27 (F := Ideal) x0 x1 x2 x3 x4 x5 x6 x7 x8 : FN)
      = resid (n := 100000) (scat x1 (edge (n := 1600000) (gath x1 x0) x2 x3 x5 (bias x4) (bias x6))) x0 x7 (bias x8) := by
    refine (resid_stage (val_main_v22 (F := Ideal) x0 x1 x2 x3 x4 x5 x6) x0 x7 x8).trans ?_
    unfold val_main_v22
    rw [h19]
  have h28 : (val_main_v28 (F := Ideal) x0 x1 x2 x3 x4 x5 x6 x7 x8 : FN)
      = relu (n := 100000) (layer (gath x1) (scat x1) x0 x2 x3 x5 x7 (bias x4) (bias x6) (bias x8)) := by
    refine (relu_stage (val_main_v27 (F := Ideal) x0 x1 x2 x3 x4 x5 x6 x7 x8)).trans ?_
    rw [h27]
    rfl
  have h44 : (val_main_v44 (F := Ideal) x0 x1 x2 x3 x4 x5 x6 x7 x8 x9 x10 x11 x12 : FE)
      = edge (n := 1600000) (gath x1 (relu (n := 100000) (layer (gath x1) (scat x1) x0 x2 x3 x5 x7 (bias x4) (bias x6) (bias x8)))) x2 x9 x11 (bias x10) (bias x12) := by
    refine (edge_stage (val_main_v35 (F := Ideal) x0 x1 x2 x3 x4 x5 x6 x7 x8) x2 x9 x11 x10 x12).trans ?_
    unfold val_main_v35
    rw [h28, idx34_eq]
  refine (resid_stage (val_main_v47 (F := Ideal) x0 x1 x2 x3 x4 x5 x6 x7 x8 x9 x10 x11 x12) (val_main_v28 (F := Ideal) x0 x1 x2 x3 x4 x5 x6 x7 x8) x13 x14).trans ?_
  unfold val_main_v47
  rw [h44, h28, idx46_eq, zeros45_eq]
  rfl

end Cert.ReferenceIdeal.RefValue

end
-- ==== Proof.lean ====
/-
  Two layers of message passing on a graph, computed by four kernels with host gathers and sums between them,
  against the same two layers written with whole-array operations.

  Over the extended reals both programs compute, per layer, the messages  x[src]·Wm + bm + e·We + be  (two matrix
  products over the 64 features and two bias rows, added in the same order), sum them into their destination
  nodes, and add  x·Ws + bs;  between the layers both take the maximum with zero.  The kernels work on blocks of
  8000 edges or 4000 nodes that tile their arrays, a kernel's matrix product into a zero accumulator is the plain
  sum the host's product is, and a change of float format is the identity, so each kernel's output array is the
  same function of its operands as the reference's stage.  The gather and the sum into nodes are the same host
  operations in both programs, applied to equal operands.  The kernels' frames and the run of the four regions are
  the generated ones; the reference's frame is its generated run.  Nothing in the comparison distributes a product
  over a sum, so the inputs' finiteness is not used.
-/
import proofs.«119272_j64201171140658_1_alg».proof.Defs
import proofs.«119272_j64201171140658_1_alg».proof.Proof.Gen.Kernel
import proofs.«119272_j64201171140658_1_alg».proof.Proof.Gen.Kernel.Skeleton
import proofs.«119272_j64201171140658_1_alg».proof.Proof.Gen.Kernel.Launch
import proofs.«119272_j64201171140658_1_alg».proof.Proof.Gen.Kernel.Points
import proofs.«119272_j64201171140658_1_alg».proof.Proof.Gen.Kernel.Frame
import proofs.«119272_j64201171140658_1_alg».proof.Proof.Gen.KernelIdeal
import proofs.«119272_j64201171140658_1_alg».proof.Proof.Gen.KernelIdeal.Skeleton
import proofs.«119272_j64201171140658_1_alg».proof.Proof.Gen.KernelIdeal.Launch
import proofs.«119272_j64201171140658_1_alg».proof.Proof.Gen.KernelIdeal.Points
import proofs.«119272_j64201171140658_1_alg».proof.Proof.Gen.KernelIdeal.Frame
import proofs.«119272_j64201171140658_1_alg».proof.Proof.Gen.ReferenceIdeal
import proofs.«119272_j64201171140658_1_alg».proof.Proof.Gen.Pre_finite_inputs
import proofs.«119272_j64201171140658_1_alg».proof.Proof.Gen.ReferenceIdeal.Run
import proofs.«119272_j64201171140658_1_alg».proof.Proof.Gen.ReferenceIdeal.Read
import proofs.«119272_j64201171140658_1_alg».proof.Proof.KernelRun
import proofs.«119272_j64201171140658_1_alg».proof.Proof.Chain
import proofs.«119272_j64201171140658_1_alg».proof.Proof.RefValue
import Idealize.ShloMosaic.Adequacy
import Idealize.ShloMosaic.Init

noncomputable section

namespace Cert.Proof

open Idealize.ShloMosaic Idealize.SL.Sem Cert.Spec

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-! ## The two programs apply the same gather, the same sum into nodes, and read a bias vector the same way -/

theorem gath_eq (e : Cert.ReferenceIdeal.RefValue.FI) :
    Cert.ReferenceIdeal.RefValue.gath e = Cert.KernelIdeal.Chain.gath e := rfl
theorem scat_eq (e : Cert.ReferenceIdeal.RefValue.FI) :
    Cert.ReferenceIdeal.RefValue.scat e = Cert.KernelIdeal.Chain.scat e := rfl
theorem bias_eq (b : Cert.ReferenceIdeal.RefValue.FB) :
    Cert.ReferenceIdeal.RefValue.bias b = Cert.KernelIdeal.Chain.bias b := rfl

/-- The network of equal operands. -/
theorem network_args {N E : Nat} (g g' : Rows N → Rows E) (s s' : Rows E → Rows N) (x x' : Rows N) (e e' : Rows E)
    (Wm1 Wm1' We1 We1' Ws1 Ws1' : Mat) (bm1 bm1' be1 be1' bs1 bs1' : Bias)
    (Wm2 Wm2' We2 We2' Ws2 Ws2' : Mat) (bm2 bm2' be2 be2' bs2 bs2' : Bias)
    (hg : g = g') (hs : s = s') (hx : x = x') (he : e = e')
    (h1 : Wm1 = Wm1') (h2 : We1 = We1') (h3 : Ws1 = Ws1') (h4 : bm1 = bm1') (h5 : be1 = be1') (h6 : bs1 = bs1')
    (h7 : Wm2 = Wm2') (h8 : We2 = We2') (h9 : Ws2 = Ws2') (h10 : bm2 = bm2') (h11 : be2 = be2') (h12 : bs2 = bs2') :
    network g s x e Wm1 We1 Ws1 bm1 be1 bs1 Wm2 We2 Ws2 bm2 be2 bs2
      = network g' s' x' e' Wm1' We1' Ws1' bm1' be1' bs1' Wm2' We2' Ws2' bm2' be2' bs2' := by
  subst hg hs hx he h1 h2 h3 h4 h5 h6 h7 h8 h9 h10 h11 h12; rfl

/-! ## Equal results -/

/-- From memories that agree on the arguments both programs end with the result array at the two-layer network of
    the argument arrays. -/
theorem algebraic : Cert.algebraic_KernelIdeal_ReferenceIdeal := by
  intro m ρ m' ρ' _ hagree
  refine ⟨fun c => Cert.KernelIdeal.Gen.W8 m ρ c (Proc.devRef .tc Cert.KernelIdeal.main_v33),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  refine (Cert.ReferenceIdeal.Read.val_main_v52_eq m' c).trans ?_
  refine (Cert.ReferenceIdeal.RefValue.result_eq _ _ _ _ _ _ _ _ _ _ _ _ _ _ _).trans ?_
  refine Eq.trans ?_ (Cert.KernelIdeal.Chain.W8_v33 m ρ c).symm
  exact network_args _ _ _ _ _ _ _ _ _ _ _ _ _ _ _ _ _ _ _ _ _ _ _ _ _ _ _ _ _ _ _ _
    ((congrArg Cert.ReferenceIdeal.RefValue.gath h1).trans (gath_eq _))
    ((congrArg Cert.ReferenceIdeal.RefValue.scat h1).trans (scat_eq _))
    h0 h2 h3 h5 h7
    ((congrArg Cert.ReferenceIdeal.RefValue.bias h4).trans (bias_eq _))
    ((congrArg Cert.ReferenceIdeal.RefValue.bias h6).trans (bias_eq _))
    ((congrArg Cert.ReferenceIdeal.RefValue.bias h8).trans (bias_eq _))
    h9 h11 h13
    ((congrArg Cert.ReferenceIdeal.RefValue.bias h10).trans (bias_eq _))
    ((congrArg Cert.ReferenceIdeal.RefValue.bias h12).trans (bias_eq _))
    ((congrArg Cert.ReferenceIdeal.RefValue.bias h14).trans (bias_eq _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
